-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S50000x64 : Shape := ⟨2, ![50000, 64]⟩
abbrev S800000 : Shape := ⟨1, ![800000]⟩
abbrev S96x96 : Shape := ⟨2, ![96, 96]⟩
abbrev S96 : Shape := ⟨1, ![96]⟩
abbrev S96x64 : Shape := ⟨2, ![96, 64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_

variable [Facts]

def fn_part2 {F : FTy → Type} [FloatOps F] (main_arg9 : FVec F S96 .f32) (main_arg10 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  main_v43

def fn_part1 {F : FTy → Type} [FloatOps F] (main_arg6 : FVec F S96x96 .f32) (main_arg7 : FVec F S96 .f32) (main_arg8 : FVec F S96x64 .f32) (main_arg9 : FVec F S96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x64 .f32 := Host.absf main_arg8
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg9 main_arg10 main_v33

def fn {F : FTy → Type} [FloatOps F] (main_arg0 : FVec F S50000x96 .f32) (main_arg1 : FVec F S50000x64 .f32) (main_arg2 : IVec S800000 32) (main_arg3 : IVec S800000 32) (main_arg4 : FVec F S96x96 .f32) (main_arg5 : FVec F S96 .f32) (main_arg6 : FVec F S96x96 .f32) (main_arg7 : FVec F S96 .f32) (main_arg8 : FVec F S96x64 .f32) (main_arg9 : FVec F S96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_v13 main_v16
-- ==== Kernel.lean ====
abbrev S50000x96 : Shape := ⟨2, ![50000, 96]⟩
abbrev S50000x64 : Shape := ⟨2, ![50000, 64]⟩
abbrev S800000 : Shape := ⟨1, ![800000]⟩
abbrev S96x96 : Shape := ⟨2, ![96, 96]⟩
abbrev S96 : Shape := ⟨1, ![96]⟩
abbrev S96x64 : Shape := ⟨2, ![96, 64]⟩
abbrev S_ : Shape := ⟨0, ![]⟩
abbrev S800000x1 : Shape := ⟨2, ![800000, 1]⟩
abbrev S800000x96 : Shape := ⟨2, ![800000, 96]⟩
abbrev S800000x64 : Shape := ⟨2, ![800000, 64]⟩
abbrev S64x96 : Shape := ⟨2, ![64, 96]⟩
abbrev S1x96 : Shape := ⟨2, ![1, 96]⟩
abbrev S5000x96 : Shape := ⟨2, ![5000, 96]⟩
abbrev S5000x64 : Shape := ⟨2, ![5000, 64]⟩

abbrev nBuf : Space → Nat
  | .hbm => 68
  | .vmem => 27
  | .smem => 0
  | _ => 0

abbrev bufTy : (tb : Table) → Fin (tcTables nBuf tb) → BufTy
  | .hbm, ⟨0, _⟩ => ⟨S50000x96, .f32⟩
  | .hbm, ⟨1, _⟩ => ⟨S50000x64, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S96, .f32⟩
  | .hbm, ⟨10, _⟩ => ⟨S96, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x96, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S96x96, .f32⟩
  | .hbm, ⟨39, _⟩ => ⟨S96x96, .f32⟩
  | .hbm, ⟨40, _⟩ => ⟨S64x96, .f32⟩
  | .hbm, ⟨41, _⟩ => ⟨S1x96, .f32⟩
  | .hbm, ⟨42, _⟩ => ⟨S1x96, .f32⟩
  | .hbm, ⟨43, _⟩ => ⟨S800000x96, .f32⟩
  | .hbm, ⟨44, _⟩ => ⟨S_, .f32⟩
  | .hbm, ⟨45, _⟩ => ⟨S50000x96, .f32⟩
  | .hbm, ⟨46, _⟩ => ⟨S800000x1, .i32⟩
  | .hbm, ⟨47, _⟩ => ⟨S50000x96, .f32⟩
  | .hbm, ⟨48, _⟩ => ⟨S50000x96, .f32⟩
  | .hbm, ⟨49, _⟩ => ⟨S_, .f32⟩
  | .hbm, ⟨50, _⟩ => ⟨S96, .f32⟩
  | .hbm, ⟨51, _⟩ => ⟨S_, .f32⟩
  | .hbm, ⟨52, _⟩ => ⟨S96, .f32⟩
  | .hbm, ⟨53, _⟩ => ⟨S96, .f32⟩
  | .hbm, ⟨54, _⟩ => ⟨S1x96, .f32⟩
  | .hbm, ⟨55, _⟩ => ⟨S50000x96, .f32⟩
  | .hbm, ⟨56, _⟩ => ⟨S50000x96, .f32⟩
  | .hbm, ⟨57, _⟩ => ⟨S50000x96, .f32⟩
  | .hbm, ⟨58, _⟩ => ⟨S_, .f32⟩
  | .hbm, ⟨59, _⟩ => ⟨S96, .f32⟩
  | .hbm, ⟨60, _⟩ => ⟨S_, .f32⟩
  | .hbm, ⟨61, _⟩ => ⟨S96, .f32⟩
  | .hbm, ⟨62, _⟩ => ⟨S96, .f32⟩
  | .hbm, ⟨63, _⟩ => ⟨S1x96, .f32⟩
  | .hbm, ⟨64, _⟩ => ⟨S1x96, .f32⟩
  | .hbm, ⟨65, _⟩ => ⟨S1x96, .f32⟩
  | .hbm, ⟨66, _⟩ => ⟨S1x96, .f32⟩
  | .hbm, ⟨67, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S96x96, .f32⟩
  | .local _ .vmem, ⟨7, _⟩ => ⟨S1x96, .f32⟩
  | .local _ .vmem, ⟨8, _⟩ => ⟨S64x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S96x96, .f32⟩
  | .local _ .vmem, ⟨16, _⟩ => ⟨S1x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S5000x96, .f32⟩
  | .local _ .vmem, ⟨26, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S96x96_S96x96_1_0 : S96x96.Transposes [1, 0] S96x96
  transposes_S96x64_S64x96_1_0 : S96x64.Transposes [1, 0] S64x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x96_S64x96_0_0 : ∀ a, (![0, 0] : Fin 2 → Nat) a + S64x96.size a ≤ S64x96.size a
  h_S64x96 : 0 < S64x96.numel
  shapeCasts_S64x96_S64x96 : S64x96.ShapeCasts S64x96
  bcast_S_S50000x96 : S_.BroadcastsInDim S50000x96 (![] : Fin 0 → Fin S50000x96.rank)
  reducesTo_S50000x96_S96_d0 : S50000x96.ReducesTo [0] S96
  h_S_ : 0 < S_.numel
  bcast_S_S96 : S_.BroadcastsInDim S96 (![] : Fin 0 → Fin S96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  gather_S50000x64_S800000x1_S800000x64_1_0_n_n_0_1_164_wf : GatherDims.WF S50000x64 S800000x1 S800000x64 [1] [0] [] [0] [] 1 ![1, 64]
  dot_S5000x96_S96x96_S5000x96_1_0_0_1_n_n_wf : DotDims.WF S5000x96 S96x96 S5000x96 [1] [0] [0] [1] [] []
  dot_S5000x64_S64x96_S5000x96_1_0_0_1_n_n_wf : DotDims.WF S5000x64 S64x96 S5000x96 [1] [0] [0] [1] [] []
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S800000x96.size a
  hwx0_0 : ∀ i : grid0.Coords, EltTy.bits .f32 = 32 ∨ (Rect.block (s := S800000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S800000x64.size a
  hwx0_2 : ∀ i : grid0.Coords, EltTy.bits .f32 = 32 ∨ (Rect.block (s := S800000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x96.size a ≤ S64x96.size a
  hwx0_5 : ∀ i : grid0.Coords, EltTy.bits .f32 = 32 ∨ (Rect.block (s := S64x96) S64x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S800000x96.size a
  hwx0_6 : ∀ i : grid0.Coords, EltTy.bits .f32 = 32 ∨ (Rect.block (s := S800000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_v6) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x96 : Shape := ⟨2, ![50000, 96]⟩
abbrev S50000x64 : Shape := ⟨2, ![50000, 64]⟩
abbrev S800000 : Shape := ⟨1, ![800000]⟩
abbrev S96x96 : Shape := ⟨2, ![96, 96]⟩
abbrev S96 : Shape := ⟨1, ![96]⟩
abbrev S96x64 : Shape := ⟨2, ![96, 64]⟩
abbrev S_ : Shape := ⟨0, ![]⟩
abbrev S800000x1 : Shape := ⟨2, ![800000, 1]⟩
abbrev S800000x64 : Shape := ⟨2, ![800000, 64]⟩
abbrev S64x96 : Shape := ⟨2, ![64, 96]⟩
abbrev S800000x96 : Shape := ⟨2, ![800000, 96]⟩
abbrev S1x96 : Shape := ⟨2, ![1, 96]⟩

abbrev nBuf : Space → Nat
  | .hbm => 93
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x64, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S96, .f32⟩
  | .hbm, ⟨10, _⟩ => ⟨S96, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S64x96, .f32⟩
  | .hbm, ⟨31, _⟩ => ⟨S800000x96, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x96, .f32⟩
  | .hbm, ⟨41, _⟩ => ⟨S96x96, .f32⟩
  | .hbm, ⟨42, _⟩ => ⟨S800000x96, .f32⟩
  | .hbm, ⟨43, _⟩ => ⟨S1x96, .f32⟩
  | .hbm, ⟨44, _⟩ => ⟨S800000x96, .f32⟩
  | .hbm, ⟨45, _⟩ => ⟨S800000x96, .f32⟩
  | .hbm, ⟨46, _⟩ => ⟨S_, .f32⟩
  | .hbm, ⟨47, _⟩ => ⟨S800000x96, .f32⟩
  | .hbm, ⟨48, _⟩ => ⟨S800000x96, .f32⟩
  | .hbm, ⟨49, _⟩ => ⟨S800000x96, .f32⟩
  | .hbm, ⟨50, _⟩ => ⟨S_, .f32⟩
  | .hbm, ⟨51, _⟩ => ⟨S50000x96, .f32⟩
  | .hbm, ⟨52, _⟩ => ⟨S800000x1, .i32⟩
  | .hbm, ⟨53, _⟩ => ⟨S50000x96, .f32⟩
  | .hbm, ⟨54, _⟩ => ⟨S96x96, .f32⟩
  | .hbm, ⟨55, _⟩ => ⟨S50000x96, .f32⟩
  | .hbm, ⟨56, _⟩ => ⟨S1x96, .f32⟩
  | .hbm, ⟨57, _⟩ => ⟨S50000x96, .f32⟩
  | .hbm, ⟨58, _⟩ => ⟨S50000x96, .f32⟩
  | .hbm, ⟨59, _⟩ => ⟨S50000x96, .f32⟩
  | .hbm, ⟨60, _⟩ => ⟨S_, .f32⟩
  | .hbm, ⟨61, _⟩ => ⟨S50000x96, .f32⟩
  | .hbm, ⟨62, _⟩ => ⟨S50000x96, .f32⟩
  | .hbm, ⟨63, _⟩ => ⟨S_, .f32⟩
  | .hbm, ⟨64, _⟩ => ⟨S96, .f32⟩
  | .hbm, ⟨65, _⟩ => ⟨S_, .f32⟩
  | .hbm, ⟨66, _⟩ => ⟨S96, .f32⟩
  | .hbm, ⟨67, _⟩ => ⟨S96, .f32⟩
  | .hbm, ⟨68, _⟩ => ⟨S1x96, .f32⟩
  | .hbm, ⟨69, _⟩ => ⟨S50000x96, .f32⟩
  | .hbm, ⟨70, _⟩ => ⟨S50000x96, .f32⟩
  | .hbm, ⟨71, _⟩ => ⟨S50000x96, .f32⟩
  | .hbm, ⟨72, _⟩ => ⟨S_, .f32⟩
  | .hbm, ⟨73, _⟩ => ⟨S96, .f32⟩
  | .hbm, ⟨74, _⟩ => ⟨S_, .f32⟩
  | .hbm, ⟨75, _⟩ => ⟨S96, .f32⟩
  | .hbm, ⟨76, _⟩ => ⟨S96, .f32⟩
  | .hbm, ⟨77, _⟩ => ⟨S1x96, .f32⟩
  | .hbm, ⟨78, _⟩ => ⟨S50000x96, .f32⟩
  | .hbm, ⟨79, _⟩ => ⟨S50000x96, .f32⟩
  | .hbm, ⟨80, _⟩ => ⟨S_, .f32⟩
  | .hbm, ⟨81, _⟩ => ⟨S96, .f32⟩
  | .hbm, ⟨82, _⟩ => ⟨S96, .f32⟩
  | .hbm, ⟨83, _⟩ => ⟨S96, .f32⟩
  | .hbm, ⟨84, _⟩ => ⟨S1x96, .f32⟩
  | .hbm, ⟨85, _⟩ => ⟨S50000x96, .f32⟩
  | .hbm, ⟨86, _⟩ => ⟨S50000x96, .f32⟩
  | .hbm, ⟨87, _⟩ => ⟨S1x96, .f32⟩
  | .hbm, ⟨88, _⟩ => ⟨S50000x96, .f32⟩
  | .hbm, ⟨89, _⟩ => ⟨S50000x96, .f32⟩
  | .hbm, ⟨90, _⟩ => ⟨S1x96, .f32⟩
  | .hbm, ⟨91, _⟩ => ⟨S50000x96, .f32⟩
  | .hbm, ⟨92, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S96x64_S64x96_1_0 : S96x64.Transposes [1, 0] S64x96
  transposes_S96x96_S96x96_1_0 : S96x96.Transposes [1, 0] S96x96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  gather_S50000x64_S800000x1_S800000x64_1_0_n_n_0_1_164_wf : GatherDims.WF S50000x64 S800000x1 S800000x64 [1] [0] [] [0] [] 1 ![1, 64]
  dot_S800000x64_S64x96_S800000x96_1_0_0_1_n_n_wf : DotDims.WF S800000x64 S64x96 S800000x96 [1] [0] [0] [1] [] []
  gather_S50000x96_S800000x1_S800000x96_1_0_n_n_0_1_196_wf : GatherDims.WF S50000x96 S800000x1 S800000x96 [1] [0] [] [0] [] 1 ![1, 96]
  dot_S800000x96_S96x96_S800000x96_1_0_0_1_n_n_wf : DotDims.WF S800000x96 S96x96 S800000x96 [1] [0] [0] [1] [] []
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x96_S800000x96_1_0_0_1_n_n : DotDims S800000x64 S64x96 S800000x96 where
  lhsContracting := [1]
  rhsContracting := [0]
  lhsNonContracting := [0]
  rhsNonContracting := [1]
  lhsBatch := []
  rhsBatch := []
  wf := dot_S800000x64_S64x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  One layer of attention-gated message passing on a graph, as three plain formulas over the extended reals.

  Per edge `e` and output column `j` the message is the attention gate times the rectified convolution of
  the source node's features: `(Σₖ (eₛ − e_d)(e,k) · Wₐ(k,j)) · max (Σₖ f(e,k) · W_c(k,j) + b_c(j), 0)`.
  Per node `i` the pre-normalisation value is the rectified sum of the aggregated messages and the node's own
  affine image: `max (agg(i,j) + (Σₖ x(i,k) · W_s(k,j) + b_s(j)), 0)`.
  The normalisation is `(h(i,j) − μ(j)) · (σ²(j) + ε)^(−1/2) · γ(j) + β(j)`.
  Matrices are curried functions of their two coordinates; nothing here mentions a program.
-/
import Idealize.ShloMosaic.PureOps.Ideal
import Idealize.ShloMosaic.Lib.ValueIdx

noncomputable section

namespace Cert.Spec

open Idealize.ShloMosaic

/-- The zero the rectifiers compare with: the all-zero single-precision word read as a real. -/
abbrev zero : EReal := Ideal.ofBits .f32 0x00000000#32

/-- The variance offset of the normalisation: the single-precision word nearest to 1e-5 read as a real. -/
abbrev eps : EReal := Ideal.ofBits .f32 0x3727C5AC#32

/-- The message of edge `e` in column `j`: the attention gate (the difference of the two endpoint embeddings
    against the attention weights) times the rectified convolution of the source features. -/
def msgAt (fs : Fin 800000 → Fin 96 → EReal) (es ed : Fin 800000 → Fin 64 → EReal)
    (wc : Fin 96 → Fin 96 → EReal) (bc : Fin 96 → EReal) (wa : Fin 64 → Fin 96 → EReal)
    (e : Fin 800000) (j : Fin 96) : EReal :=
  (∑ k : Fin 64, (es e k - ed e k) * wa k j) * max ((∑ k : Fin 96, fs e k * wc k j) + bc j) zero

/-- Node `i`, column `j`, before normalisation: the aggregated messages plus the node's own affine image,
    rectified. -/
def selfAt (x agg : Fin 50000 → Fin 96 → EReal) (ws : Fin 96 → Fin 96 → EReal) (bs : Fin 96 → EReal)
    (i : Fin 50000) (j : Fin 96) : EReal :=
  max (agg i j + ((∑ k : Fin 96, x i k * ws k j) + bs j)) zero

/-- The normalised value of node `i` in column `j` from the column's mean, variance, scale and shift. -/
def bnAt (h : Fin 50000 → Fin 96 → EReal) (mean var gamma beta : Fin 96 → EReal)
    (i : Fin 50000) (j : Fin 96) : EReal :=
  (h i j - mean j) * Ideal.rsqrt (var j + eps) * gamma j + beta j

end Cert.Spec

end
-- ==== Proof.LibMatmul.lean ====
/-
  A plain matrix product read at an index, for any extents.

  A product of an `R × K` matrix with a `K × C` matrix whose dimension numbers contract the left operand's columns
  with the right operand's rows and have no batch axes is, at entry `(p, q)` and over the extended reals,
  the finite sum over `k` of `l (p, k) · r (k, q)`; into a zero accumulator nothing is added to it.
-/
import Idealize.ShloMosaic.PureOps.Ideal.Laws
import Idealize.ShloMosaic.Lib.ValueIdx

noncomputable section

namespace Cert.LibMatmul

open Idealize.ShloMosaic Idealize.ShloMosaic.ValueIdx

variable {R K C : Nat}

/-- The operand indices of a plain product at result entry `(p, q)` and contraction position `k`:
    `(p, k)` on the left, `(k, q)` on the right. -/
theorem plain_operand_indices (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (p : Fin R) (q : Fin C) (κ : d.contr.Idx) (k : Fin K)
    (hκ : (κ ⟨0, by rw [d.rank_contr, hlc]; exact Nat.one_pos⟩).val = k.val) :
    d.lhsIdx (ix2 p q) κ = ix2 p k ∧ d.rhsIdx (ix2 p q) κ = ix2 k q := by
  have key : ∀ (j : (⟨2, ![R, C]⟩ : Shape).Idx) (n n' : Nat) (hn : n < 2) (hn' : n' < 2), n = n' →
      (j ⟨n, hn⟩).val = (j ⟨n', hn'⟩).val := fun j n n' hn hn' e => by subst e; rfl
  constructor
  · funext a; apply Fin.ext
    match a with
    | ⟨0, _⟩ =>
      show (d.lhsIdx (ix2 p q) κ (0 : Fin 2)).val = p.val
      unfold DotDims.lhsIdx
      rw [dif_neg (by rw [hlb]; exact List.not_mem_nil), dif_pos (by rw [hln]; exact List.mem_singleton.mpr rfl)]
      simp only [Fin.val_cast]
      exact (key (ix2 p q) _ 0 _ (by decide) (by simp [hlb, hln])).trans rfl
    | ⟨1, _⟩ =>
      show (d.lhsIdx (ix2 p q) κ (1 : Fin 2)).val = k.val
      exact (d.lhsIdx_val_of_single hlc (ix2 p q) κ).trans hκ
  · funext a; apply Fin.ext
    match a with
    | ⟨0, _⟩ =>
      show (d.rhsIdx (ix2 p q) κ (0 : Fin 2)).val = k.val
      exact (d.rhsIdx_val_of_single hrc (ix2 p q) κ).trans hκ
    | ⟨1, _⟩ =>
      show (d.rhsIdx (ix2 p q) κ (1 : Fin 2)).val = q.val
      unfold DotDims.rhsIdx
      rw [dif_neg (by rw [hrb]; exact List.not_mem_nil), dif_pos (by rw [hrn]; exact List.mem_singleton.mpr rfl)]
      simp only [Fin.val_cast]
      exact (key (ix2 p q) _ 1 _ (by decide) (by simp [hlb, hln, hrn])).trans rfl

/-- A plain product into the zero accumulator, at entry `(p, q)`: the sum over the contracted extent. -/
theorem matmul_rows_cols {φ₁ φ₂ : FTy} (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (l : FVec Ideal (⟨2, ![R, K]⟩ : Shape) φ₁) (r : FVec Ideal (⟨2, ![K, C]⟩ : Shape) φ₂)
    (p : Fin R) (q : Fin C) :
    FloatOps.matmul d prec l r (constant (⟨2, ![R, C]⟩ : Shape) .f32 0x00000000#32) (ix2 p q)
      = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  obtain ⟨el, er⟩ := plain_operand_indices d hlc hrc hln hrn hlb hrb p q ((contrEquiv1 d K hr hs).symm k) k
    (contrEquiv1_symm_val d K hr hs k)
  rw [el, er]

end Cert.LibMatmul

end
-- ==== Proof.KMsg.lean ====
/-
  The first launch, read as one array.

  Each of its 160 grid points takes 5000 consecutive edges: it loads the edges' source features, the two endpoint
  embeddings, and the whole weight matrices and bias, and writes back the 5000 x 96 block of messages.  Since the
  blocks tile the edge axis, the array the launch leaves is, entry by entry, the message formula of the arrays it
  was entered with.
-/
import proofs.«160944_j56684978372724_1_alg».proof.Proof.Gen.KernelIdeal.Frame
import proofs.«160944_j56684978372724_1_alg».proof.Proof.Spec
import proofs.«160944_j56684978372724_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgRegion

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-buffer access, as a constant function. -/
theorem zero_offsets : (![0, 0] : Fin 2 → Nat) = fun _ => 0 := funext fun a => by fin_cases a <;> rfl

/-- The launch's index maps at a point: a row-blocked window sits at block `(t, 0)`, a whole-array window at `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The bias row broadcast down the block's rows reads, at `(p, q)`, the row's entry `q`. -/
theorem bias_apply (x7 : Vec Ideal S1x96 .f32) (p : Fin 5000) (q : Fin 96) :
    broadcastTo S5000x96 x7 broadcasts_S1x96_S5000x96 (ix2 p q) = x7 (ix2 (0 : Fin 1) q) := by
  refine broadcastTo_apply x7 broadcasts_S1x96_S5000x96 (ix2 p q) (ix2 (0 : Fin 1) q) fun a => ?_
  match a with
  | ⟨0, _⟩ => rfl
  | ⟨1, _⟩ => rfl

/-- The body's arithmetic at row `p`, column `q` of a block: the attention product times the rectified convolution. -/
theorem payload_apply (x0 : Vec Ideal S5000x96 .f32) (x3 : Vec Ideal S96x96 .f32) (x7 : Vec Ideal S1x96 .f32)
    (x13 x15 : Vec Ideal S5000x64 .f32) (x19 : Vec Ideal S64x96 .f32) (p : Fin 5000) (q : Fin 96) :
    k0_pay1 (F := Ideal) x0 x3 x7 x13 x15 x19 (ix2 p q)
      = (∑ k : Fin 64, (x13 (ix2 p k) - x15 (ix2 p k)) * x19 (ix2 k q))
        * max ((∑ k : Fin 96, x0 (ix2 p k) * x3 (ix2 k q)) + x7 (ix2 (0 : Fin 1) q)) Spec.zero := by
  unfold k0_pay1
  simp only [shapeCast_self]
  rw [mulf_apply, maximumf_apply, addf_apply, broadcast_apply, bias_apply]
  have hatt := Cert.LibMatmul.matmul_rows_cols (R := 5000) (K := 64) (C := 96)
    dot_S5000x64_S64x96_S5000x96_1_0_0_1_n_n rfl rfl rfl rfl rfl rfl none
    (truncf FTy.bf16 (subf x13 x15) bitsLt_bf16_f32) (truncf FTy.bf16 x19 bitsLt_bf16_f32) p q
  have hconv := Cert.LibMatmul.matmul_rows_cols (R := 5000) (K := 96) (C := 96)
    dot_S5000x96_S96x96_S5000x96_1_0_0_1_n_n rfl rfl rfl rfl rfl rfl none
    (truncf FTy.bf16 x0 bitsLt_bf16_f32) (truncf FTy.bf16 x3 bitsLt_bf16_f32) p q
  refine (congrArg₂ (· * ·) hatt (congrArg (fun z => max (z + x7 (ix2 (0 : Fin 1) q)) _) hconv)).trans ?_
  rfl

/-- An index of the result array is in point `t`'s block iff each coordinate is in the block's range on its axis. -/
theorem mem_block (t : Fin cfg0.N) (i : S800000x96.Idx) :
    i ∈ ((cfg0.win 6).blk t).view.set ↔ ∀ a : Fin 2, win0_6.index t a * S5000x96.size a ≤ (i a).val
      ∧ (i a).val < win0_6.index t a * S5000x96.size a + S5000x96.size a := by
  show i ∈ ((View.whole main_v26).slice (win0_6.rect t)).set ↔ _
  rw [View.set_slice_whole, Rect.mem_set_unit]
  exact Iff.rfl

/-- The blocks tile the edge axis: row `r` is in the block of point `r / 5000`, which is written back. -/
theorem covered (i : S800000x96.Idx) :
    ∃ t : Fin cfg0.N, (cfg0.win 6).flush t = true ∧ i ∈ ((cfg0.win 6).blk t).view.set := by
  have hi0 : (i 0).val < 800000 := (i 0).isLt
  have hi1 : (i 1).val < 96 := (i 1).isLt
  have hN : cfg0.N = 160 := N_0
  obtain ⟨t, ht⟩ : ∃ t : Fin cfg0.N, t.val = (i 0).val / 5000 := ⟨⟨(i 0).val / 5000, by rw [hN]; omega⟩, rfl⟩
  obtain ⟨i00, i01, i10, i11, i20, i21, i30, i31, i40, i41, i50, i51, i60, i61⟩ := block_indices t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 96 ≤ (i 1).val ∧ (i 1).val < win0_6.index t (1 : Fin 2) * 96 + 96
    omega

variable (V : (c : Dev nD) → (b : Ref sig .tc) → Buf (Elt Ideal) ((c : Thread nD τ).loc b))

/-- Row `p` of point `t`'s block of source features is row `5000 t + p` of the array. -/
theorem features_block (c : Dev nD) (t : Fin cfg0.N) (p : Fin 5000) (k : Fin 96) (e : Fin 800000)
    (he : e.val = t.val * 5000 + p.val) :
    (iblk0 V c 0 t : Vec Ideal S5000x96 .f32) (ix2 p k) = V c main_v6 (ix2 e k) := by
  obtain ⟨i00, i01, i10, i11, i20, i21, i30, i31, i40, i41, i50, i51, i60, i61⟩ := block_indices t
  unfold iblk0
  show V c main_v6 (((cfg0.win 0).blk t).view.emb (ix2 p k)) = V c main_v6 (ix2 e k)
  refine congrArg (V c main_v6) (funext fun a => Fin.ext ?_)
  match a with
  | ⟨0, _⟩ => show win0_0.index t (0 : Fin 2) * 5000 + 1 * p.val = e.val; omega
  | ⟨1, _⟩ => show win0_0.index t (1 : Fin 2) * 96 + 1 * k.val = k.val; omega

/-- Row `p` of point `t`'s block of the first embedding is row `5000 t + p` of the array. -/
theorem src_embedding_block (c : Dev nD) (t : Fin cfg0.N) (p : Fin 5000) (k : Fin 64) (e : Fin 800000)
    (he : e.val = t.val * 5000 + p.val) :
    (iblk0 V c 1 t : Vec Ideal S5000x64 .f32) (ix2 p k) = V c main_v13 (ix2 e k) := by
  obtain ⟨i00, i01, i10, i11, i20, i21, i30, i31, i40, i41, i50, i51, i60, i61⟩ := block_indices t
  unfold iblk0
  show V c main_v13 (((cfg0.win 1).blk t).view.emb (ix2 p k)) = V c main_v13 (ix2 e k)
  refine congrArg (V c main_v13) (funext fun a => Fin.ext ?_)
  match a with
  | ⟨0, _⟩ => show win0_1.index t (0 : Fin 2) * 5000 + 1 * p.val = e.val; omega
  | ⟨1, _⟩ => show win0_1.index t (1 : Fin 2) * 64 + 1 * k.val = k.val; omega

/-- Row `p` of point `t`'s block of the second embedding is row `5000 t + p` of the array. -/
theorem dst_embedding_block (c : Dev nD) (t : Fin cfg0.N) (p : Fin 5000) (k : Fin 64) (e : Fin 800000)
    (he : e.val = t.val * 5000 + p.val) :
    (iblk0 V c 2 t : Vec Ideal S5000x64 .f32) (ix2 p k) = V c main_v20 (ix2 e k) := by
  obtain ⟨i00, i01, i10, i11, i20, i21, i30, i31, i40, i41, i50, i51, i60, i61⟩ := block_indices t
  unfold iblk0
  show V c main_v20 (((cfg0.win 2).blk t).view.emb (ix2 p k)) = V c main_v20 (ix2 e k)
  refine congrArg (V c main_v20) (funext fun a => Fin.ext ?_)
  match a with
  | ⟨0, _⟩ => show win0_2.index t (0 : Fin 2) * 5000 + 1 * p.val = e.val; omega
  | ⟨1, _⟩ => show win0_2.index t (1 : Fin 2) * 64 + 1 * k.val = k.val; omega

/-- Every point's block of the convolution weights is the whole matrix. -/
theorem conv_weights_block (c : Dev nD) (t : Fin cfg0.N) (k : Fin 96) (q : Fin 96) :
    (iblk0 V c 3 t : Vec Ideal S96x96 .f32) (ix2 k q) = V c main_v21 (ix2 k q) := by
  obtain ⟨i00, i01, i10, i11, i20, i21, i30, i31, i40, i41, i50, i51, i60, i61⟩ := block_indices t
  unfold iblk0
  show V c main_v21 (((cfg0.win 3).blk t).view.emb (ix2 k q)) = V c main_v21 (ix2 k q)
  refine congrArg (V c main_v21) (funext fun a => Fin.ext ?_)
  match a with
  | ⟨0, _⟩ => show win0_3.index t (0 : Fin 2) * 96 + 1 * k.val = k.val; omega
  | ⟨1, _⟩ => show win0_3.index t (1 : Fin 2) * 96 + 1 * q.val = q.val; omega

/-- Every point's block of the bias is the whole row. -/
theorem bias_block (c : Dev nD) (t : Fin cfg0.N) (k : Fin 1) (q : Fin 96) :
    (iblk0 V c 4 t : Vec Ideal S1x96 .f32) (ix2 k q) = V c main_v24 (ix2 k q) := by
  obtain ⟨i00, i01, i10, i11, i20, i21, i30, i31, i40, i41, i50, i51, i60, i61⟩ := block_indices t
  unfold iblk0
  show V c main_v24 (((cfg0.win 4).blk t).view.emb (ix2 k q)) = V c main_v24 (ix2 k q)
  refine congrArg (V c main_v24) (funext fun a => Fin.ext ?_)
  match a with
  | ⟨0, _⟩ => show win0_4.index t (0 : Fin 2) * 1 + 1 * k.val = k.val; omega
  | ⟨1, _⟩ => show win0_4.index t (1 : Fin 2) * 96 + 1 * q.val = q.val; omega

/-- Every point's block of the attention weights is the whole matrix. -/
theorem att_weights_block (c : Dev nD) (t : Fin cfg0.N) (k : Fin 64) (q : Fin 96) :
    (iblk0 V c 5 t : Vec Ideal S64x96 .f32) (ix2 k q) = V c main_v23 (ix2 k q) := by
  obtain ⟨i00, i01, i10, i11, i20, i21, i30, i31, i40, i41, i50, i51, i60, i61⟩ := block_indices t
  unfold iblk0
  show V c main_v23 (((cfg0.win 5).blk t).view.emb (ix2 k q)) = V c main_v23 (ix2 k q)
  refine congrArg (V c main_v23) (funext fun a => Fin.ext ?_)
  match a with
  | ⟨0, _⟩ => show win0_5.index t (0 : Fin 2) * 64 + 1 * k.val = k.val; omega
  | ⟨1, _⟩ => show win0_5.index t (1 : Fin 2) * 96 + 1 * q.val = q.val; omega

/-- Point `t`'s payload at row `p`, column `q` is the message of edge `5000 t + p` in column `q`. -/
theorem point_formula (c : Dev nD) (t : Fin cfg0.N) (p : Fin 5000) (q : Fin 96) (e : Fin 800000)
    (he : e.val = t.val * 5000 + p.val) :
    k0_pay1 (F := Ideal) (iblk0 V c 0 t) (iblk0 V c 3 t) (iblk0 V c 4 t) (iblk0 V c 1 t) (iblk0 V c 2 t) (iblk0 V c 5 t) (ix2 p q)
      = Spec.msgAt (fun e k => V c main_v6 (ix2 e k)) (fun e k => V c main_v13 (ix2 e k)) (fun e k => V c main_v20 (ix2 e k))
        (fun k j => V c main_v21 (ix2 k j)) (fun j => V c main_v24 (ix2 (0 : Fin 1) j)) (fun k j => V c main_v23 (ix2 k j)) e q := by
  unfold Spec.msgAt
  rw [payload_apply]
  refine congrArg₂ (· * ·) (Finset.sum_congr rfl fun k _ => ?_)
    (congrArg₂ max (congrArg₂ (· + ·) (Finset.sum_congr rfl fun k _ => ?_) ?_) rfl)
  · rw [src_embedding_block V c t p k e he, dst_embedding_block V c t p k e he, att_weights_block V c t k q]
  · rw [features_block V c t p k e he, conv_weights_block V c t k q]
  · exact bias_block V c t 0 q

/-- What grid point `t` writes back is its block of the message formula of the arrays the launch was entered with. -/
theorem flushed_eq (c : Dev nD) (t : Fin cfg0.N) :
    (dat0 V c).flushed 6 t = ((cfg0.win 6).blk t).view.read (Elt Ideal) (fun i : S800000x96.Idx =>
      Spec.msgAt (fun e k => V c main_v6 (ix2 e k)) (fun e k => V c main_v13 (ix2 e k)) (fun e k => V c main_v20 (ix2 e k))
        (fun k j => V c main_v21 (ix2 k j)) (fun j => V c main_v24 (ix2 (0 : Fin 1) j)) (fun k j => V c main_v23 (ix2 k j)) (i 0) (i 1)) := by
  show (cfg0.win 6).cut (grid0.coords t) ((dat0 V c).after 6 t) = _
  rw [after0_6]
  unfold out0_6
  rw [View.canon_unit_zero zero_offsets]
  simp only [View.ld_unit_zero (S := S5000x96) zero_offsets, View.ld_unit_zero (S := S96x96) zero_offsets,
    View.ld_unit_zero (S := S1x96) zero_offsets, View.ld_unit_zero (S := S5000x64) zero_offsets,
    View.ld_unit_zero (S := S64x96) zero_offsets]
  obtain ⟨i00, i01, i10, i11, i20, i21, i30, i31, i40, i41, i50, i51, i60, i61⟩ := block_indices t
  funext j
  obtain ⟨p, q, rfl⟩ : ∃ (p : Fin 5000) (q : Fin 96), j = ix2 p q := ⟨j 0, j 1, eq_ix2 (n0 := 5000) (n1 := 96) j⟩
  have h0 : ((((cfg0.win 6).blk t).view.emb (ix2 p q)) 0 : Fin 800000).val = t.val * 5000 + p.val := by
    show win0_6.index t (0 : Fin 2) * 5000 + 1 * p.val = _
    omega
  have h1 : (((cfg0.win 6).blk t).view.emb (ix2 p q)) 1 = q := Fin.ext (by
    show win0_6.index t (1 : Fin 2) * 96 + 1 * q.val = q.val
    omega)
  show k0_pay1 (F := Ideal) (iblk0 V c 0 t) (iblk0 V c 3 t) (iblk0 V c 4 t) (iblk0 V c 1 t) (iblk0 V c 2 t) (iblk0 V c 5 t) (ix2 p q)
      = Spec.msgAt (fun e k => V c main_v6 (ix2 e k)) (fun e k => V c main_v13 (ix2 e k)) (fun e k => V c main_v20 (ix2 e k))
        (fun k j => V c main_v21 (ix2 k j)) (fun j => V c main_v24 (ix2 (0 : Fin 1) j)) (fun k j => V c main_v23 (ix2 k j))
        ((((cfg0.win 6).blk t).view.emb (ix2 p q)) 0) ((((cfg0.win 6).blk t).view.emb (ix2 p q)) 1)
  rw [h1]
  exact point_formula V c t p q _ h0

/-- What the first launch leaves in its result array: at edge `e`, column `j`, the message formula of the six arrays
    the launch reads (source features, the two embeddings, the convolution weights, the bias row, the attention
    weights), as the launch finds them. -/
theorem msg_array (c : Dev nD) :
    (dat0 V c).arrAt 6 cfg0.N = fun i : S800000x96.Idx =>
      Spec.msgAt (fun e k => V c main_v6 (ix2 e k)) (fun e k => V c main_v13 (ix2 e k)) (fun e k => V c main_v20 (ix2 e k))
        (fun k j => V c main_v21 (ix2 k j)) (fun j => V c main_v24 (ix2 (0 : Fin 1) j)) (fun k j => V c main_v23 (ix2 k j)) (i 0) (i 1) := by
  exact (dat0 V c).arrAt_eq_of_cover 6 _ (fun t _ => flushed_eq V c t) covered

end Cert.KernelIdeal.MsgRegion

end
-- ==== Proof.KSelf.lean ====
/-
  The second launch, read as one array.

  Each of its 10 grid points takes 5000 consecutive nodes: it loads the nodes' features and aggregated messages and
  the whole self-connection weights and bias, and writes back the rectified sum.  The blocks tile the node axis, so
  the array the launch leaves is, entry by entry, the self-connection formula of the arrays it was entered with.
-/
import proofs.«160944_j56684978372724_1_alg».proof.Proof.Gen.KernelIdeal.Frame
import proofs.«160944_j56684978372724_1_alg».proof.Proof.Spec
import proofs.«160944_j56684978372724_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SelfRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer rectangle, as the constant function. -/
theorem zero_offsets : (![0, 0] : Fin 2 → Nat) = fun _ => 0 := funext fun a => by fin_cases a <;> rfl

/-- The body's arithmetic at row `p`, column `q` of its block: the rectified sum of the aggregated message and the
    row's affine image under the weights and the bias row. -/
theorem payload_at (x0 : Vec Ideal S5000x96 .f32) (x2 : Vec Ideal S96x96 .f32) (x6 : Vec Ideal S1x96 .f32)
    (x10 : Vec Ideal S5000x96 .f32) (p : Fin 5000) (q : Fin 96) :
    k1_pay1 (F := Ideal) x0 x2 x6 x10 (ix2 p q)
      = max (x10 (ix2 p q) + ((∑ k : Fin 96, x0 (ix2 p k) * x2 (ix2 k q)) + x6 (ix2 (0 : Fin 1) q))) Spec.zero := by
  unfold k1_pay1
  rw [maximumf_apply, addf_apply, addf_apply, broadcast_apply, shapeCast_self, shapeCast_self, shapeCast_self]
  unfold Idealize.ShloMosaic.matmul
  rw [Cert.LibMatmul.matmul_rows_cols dot_S5000x96_S96x96_S5000x96_1_0_0_1_n_n rfl rfl rfl rfl rfl rfl none _ _ p q]
  rw [broadcastTo_apply x6 broadcasts_S1x96_S5000x96 (ix2 p q) (ix2 (0 : Fin 1) q) (fun a => by
    match a with
    | ⟨0, _⟩ => rfl
    | ⟨1, _⟩ => rfl)]
  simp only [truncf_apply]
  rfl

/-- The printed index maps, decided once over the grid: the three row-blocked windows sit at block `(t, 0)`, the
    two whole-array windows at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature block at point `t` is rows `5000 t … 5000 t + 4999` of the feature array. -/
theorem features_block_at (c : Dev nD) (t : Fin cfg1.N) (x : S5000x96.Idx) (k : S50000x96.Idx)
    (hk0 : (k 0).val = t.val * 5000 + (x 0).val) (hk1 : (k 1).val = (x 1).val) :
    (iblk1 V c 0 t : Vec Ideal S5000x96 .f32) x = (V c main_arg0 : S50000x96.Idx → Elt Ideal .f32) k := by
  obtain ⟨f0, f1, -⟩ := index_facts t
  unfold iblk1
  rw [View.read_apply]
  show V c main_arg0 _ = V c main_arg0 _
  congr 1
  funext a
  apply Fin.ext
  match a with
  | ⟨0, _⟩ => show win1_0.index t (0 : Fin 2) * 5000 + 1 * (x 0).val = (k 0).val; rw [f0, hk0]; omega
  | ⟨1, _⟩ => show win1_0.index t (1 : Fin 2) * 96 + 1 * (x 1).val = (k 1).val; rw [f1, hk1]; omega

/-- The aggregated-message block at point `t` is the same rows of the aggregated-message array. -/
theorem messages_block_at (c : Dev nD) (t : Fin cfg1.N) (x : S5000x96.Idx) (k : S50000x96.Idx)
    (hk0 : (k 0).val = t.val * 5000 + (x 0).val) (hk1 : (k 1).val = (x 1).val) :
    (iblk1 V c 1 t : Vec Ideal S5000x96 .f32) x = (V c main_v29 : S50000x96.Idx → Elt Ideal .f32) k := by
  obtain ⟨-, -, f0, f1, -⟩ := index_facts t
  unfold iblk1
  rw [View.read_apply]
  show V c main_v29 _ = V c main_v29 _
  congr 1
  funext a
  apply Fin.ext
  match a with
  | ⟨0, _⟩ => show win1_1.index t (0 : Fin 2) * 5000 + 1 * (x 0).val = (k 0).val; rw [f0, hk0]; omega
  | ⟨1, _⟩ => show win1_1.index t (1 : Fin 2) * 96 + 1 * (x 1).val = (k 1).val; rw [f1, hk1]; omega

/-- The weight block at every point is the whole weight array. -/
theorem weights_block_at (c : Dev nD) (t : Fin cfg1.N) (x : S96x96.Idx) :
    (iblk1 V c 2 t : Vec Ideal S96x96 .f32) x = (V c main_v22 : S96x96.Idx → Elt Ideal .f32) x := by
  obtain ⟨-, -, -, -, f0, f1, -⟩ := index_facts t
  unfold iblk1
  rw [View.read_apply]
  show V c main_v22 _ = V c main_v22 _
  congr 1
  funext a
  apply Fin.ext
  match a with
  | ⟨0, _⟩ => show win1_2.index t (0 : Fin 2) * 96 + 1 * (x 0).val = (x 0).val; rw [f0]; omega
  | ⟨1, _⟩ => show win1_2.index t (1 : Fin 2) * 96 + 1 * (x 1).val = (x 1).val; rw [f1]; omega

/-- The bias block at every point is the whole bias row. -/
theorem bias_block_at (c : Dev nD) (t : Fin cfg1.N) (x : S1x96.Idx) :
    (iblk1 V c 3 t : Vec Ideal S1x96 .f32) x = (V c main_v25 : S1x96.Idx → Elt Ideal .f32) x := by
  obtain ⟨-, -, -, -, -, -, f0, f1, -⟩ := index_facts t
  unfold iblk1
  rw [View.read_apply]
  show V c main_v25 _ = V c main_v25 _
  congr 1
  funext a
  apply Fin.ext
  match a with
  | ⟨0, _⟩ => show win1_3.index t (0 : Fin 2) * 1 + 1 * (x 0).val = (x 0).val; rw [f0]; omega
  | ⟨1, _⟩ => show win1_3.index t (1 : Fin 2) * 96 + 1 * (x 1).val = (x 1).val; rw [f1]; omega

/-- What the launch leaves, as one function of the four arrays it reads: the self-connection formula at every node
    and column. -/
abbrev result (c : Dev nD) : S50000x96.Idx → Elt Ideal .f32 := fun i =>
  Spec.selfAt (fun n k => V c main_arg0 (ix2 n k)) (fun n j => V c main_v29 (ix2 n j))
    (fun k j => V c main_v22 (ix2 k j)) (fun j => V c main_v25 (ix2 (0 : Fin 1) j)) (i 0) (i 1)

/-- The body's value at an index, when its four loaded blocks are known there in terms of four arrays, is the
    self-connection formula of those arrays. -/
theorem selfAt_of_blocks (x agg : Fin 50000 → Fin 96 → EReal) (ws : Fin 96 → Fin 96 → EReal) (bs : Fin 96 → EReal)
    (b0 b1 : Vec Ideal S5000x96 .f32) (b2 : Vec Ideal S96x96 .f32) (b3 : Vec Ideal S1x96 .f32)
    (p : Fin 5000) (q : Fin 96) (n : Fin 50000)
    (h0 : ∀ k : Fin 96, b0 (ix2 p k) = x n k) (h1 : b1 (ix2 p q) = agg n q)
    (h2 : ∀ k : Fin 96, b2 (ix2 k q) = ws k q) (h3 : b3 (ix2 (0 : Fin 1) q) = bs q) :
    k1_pay1 (F := Ideal) b0 b2 b3 b1 (ix2 p q) = Spec.selfAt x agg ws bs n q := by
  rw [payload_at, h1, h3]
  unfold Spec.selfAt
  simp only [h0, h2]

/-- The body's value at row `p`, column `q` of point `t`'s block is the formula at node `5000 t + p`. -/
theorem point_formula (c : Dev nD) (t : Fin cfg1.N) (p : Fin 5000) (q : Fin 96) (n : Fin 50000)
    (hn : n.val = t.val * 5000 + p.val) :
    k1_pay1 (F := Ideal) (iblk1 V c 0 t) (iblk1 V c 2 t) (iblk1 V c 3 t) (iblk1 V c 1 t) (ix2 p q)
      = Spec.selfAt (fun n k => V c main_arg0 (ix2 n k)) (fun n j => V c main_v29 (ix2 n j))
          (fun k j => V c main_v22 (ix2 k j)) (fun j => V c main_v25 (ix2 (0 : Fin 1) j)) n q :=
  selfAt_of_blocks _ _ _ _ (iblk1 V c 0 t) (iblk1 V c 1 t) (iblk1 V c 2 t) (iblk1 V c 3 t) p q n
    (fun k => features_block_at V c t (ix2 p k) (ix2 n k) hn rfl)
    (messages_block_at V c t (ix2 p q) (ix2 n q) hn rfl)
    (fun k => weights_block_at V c t (ix2 k q))
    (bias_block_at V c t (ix2 (0 : Fin 1) q))

/-- Block `t` of any array of the result's shape, read at row `p`, is the array at row `5000 t + p`. -/
theorem result_block_at (t : Fin cfg1.N) (G : S50000x96.Idx → Elt Ideal .f32) (x : S5000x96.Idx) (k : S50000x96.Idx)
    (hk0 : (k 0).val = t.val * 5000 + (x 0).val) (hk1 : (k 1).val = (x 1).val) :
    (((cfg1.win 4).blk t).view.read (Elt Ideal) G : Vec Ideal S5000x96 .f32) x = G k := by
  obtain ⟨-, -, -, -, -, -, -, -, f0, f1⟩ := index_facts t
  rw [View.read_apply]
  show G _ = G _
  congr 1
  funext a
  apply Fin.ext
  match a with
  | ⟨0, _⟩ => show win1_4.index t (0 : Fin 2) * 5000 + 1 * (x 0).val = (k 0).val; rw [f0, hk0]; omega
  | ⟨1, _⟩ => show win1_4.index t (1 : Fin 2) * 96 + 1 * (x 1).val = (k 1).val; rw [f1, hk1]; omega

/-- What point `t` writes back is block `t` of the formula's array. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero zero_offsets]
  simp only [View.ld_unit_zero (S := S5000x96) zero_offsets, View.ld_unit_zero (S := S96x96) zero_offsets,
    View.ld_unit_zero (S := S1x96) zero_offsets]
  have ht : t.val < 10 := t.isLt.trans_eq N_1
  funext j
  obtain ⟨p, q, rfl⟩ : ∃ (p : Fin 5000) (q : Fin 96), j = ix2 p q := ⟨j 0, j 1, eq_ix2 j⟩
  have hp : p.val < 5000 := p.isLt
  have hn : t.val * 5000 + p.val < 50000 := by omega
  refine Eq.trans ?_ (result_block_at t (result V c) (ix2 p q) (ix2 ⟨t.val * 5000 + p.val, hn⟩ q) rfl rfl).symm
  exact point_formula V c t p q ⟨t.val * 5000 + p.val, hn⟩ rfl
/-- An index of the result array is in point `t`'s block iff each coordinate is in the block's range on its axis. -/
theorem mem_block (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v30).slice (win1_4.rect t)).set ↔ _
  rw [View.set_slice_whole, Rect.mem_set_unit]
  exact Iff.rfl

/-- The blocks tile the node axis: node `r` is in the block of point `r / 5000`. -/
theorem covered (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, f0, f1⟩ := index_facts t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [f0, ht]; omega
  | ⟨1, _⟩ =>
    show win1_4.index t (1 : Fin 2) * 96 ≤ (i 1).val ∧ (i 1).val < win1_4.index t (1 : Fin 2) * 96 + 96
    rw [f1]; omega
/-- What the second launch leaves in its result array: at node `i`, column `j`, the rectified sum of the aggregated
    messages and the node's own affine image, of the four arrays the launch reads as it finds them. -/
theorem self_array (c : Dev nD) :
    (dat1 V c).arrAt 4 cfg1.N = fun i : S50000x96.Idx =>
      Spec.selfAt (fun n k => V c main_arg0 (ix2 n k)) (fun n j => V c main_v29 (ix2 n j))
        (fun k j => V c main_v22 (ix2 k j)) (fun j => V c main_v25 (ix2 (0 : Fin 1) j)) (i 0) (i 1) :=
  (dat1 V c).arrAt_eq_of_cover 4 (result V c) (fun t _ => flushed_eq V c t) covered

end Cert.KernelIdeal.SelfRegion

end
-- ==== Proof.KNorm.lean ====
/-
  The third launch, read as one array.

  Each of its 10 grid points takes 5000 consecutive nodes: it loads their pre-normalisation values and the four
  rows (mean, variance, scale, shift) and writes back the normalised block.  The blocks tile the node axis, so the
  array the launch leaves is, entry by entry, the normalisation formula of the arrays it was entered with.
-/
import proofs.«160944_j56684978372724_1_alg».proof.Proof.Gen.KernelIdeal.Frame
import proofs.«160944_j56684978372724_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The normalisation formula of the arrays the launch is entered with, as one array. -/
abbrev normOf (c : Dev nD) : S50000x96.Idx → Elt Ideal .f32 := fun i =>
  Spec.bnAt (fun n j => V c main_v30 (ix2 n j)) (fun j => V c main_v41 (ix2 (0 : Fin 1) j)) (fun j => V c main_v42 (ix2 (0 : Fin 1) j))
    (fun j => V c main_v43 (ix2 (0 : Fin 1) j)) (fun j => V c main_v44 (ix2 (0 : Fin 1) j)) (i 0) (i 1)

/-- The body's arithmetic at row p, column q of its block: the value minus the mean, times the inverse root of the
    variance plus the offset, times the scale, plus the shift. -/
theorem pay_apply (x0 : Vec Ideal S5000x96 .f32) (xv xm xg xb : Vec Ideal S1x96 .f32) (p : Fin 5000) (q : Fin 96) :
    k2_pay1 x0 xv xm xg xb (ix2 p q)
      = (x0 (ix2 p q) - xm (ix2 (0 : Fin 1) q)) * Ideal.rsqrt (xv (ix2 (0 : Fin 1) q) + Spec.eps) * xg (ix2 (0 : Fin 1) q)
        + xb (ix2 (0 : Fin 1) q) := by
  unfold k2_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The index maps over the grid: the value window and the result window sit at block (t, 0); the four
    row windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The value window's block at point t holds rows 5000 t … 5000 t + 4999 of the value array. -/
theorem blk0_apply (c : Dev nD) (t : Fin cfg2.N) (p : Fin 5000) (q : Fin 96) (n : Fin 50000)
    (hn : n.val = t.val * 5000 + p.val) :
    (iblk2 V c 0 t : Vec Ideal S5000x96 .f32) (ix2 p q) = V c main_v30 (ix2 n q) := by
  obtain ⟨e0, e1, -⟩ := idx_facts t
  unfold iblk2
  rw [View.read_apply]
  show V c main_v30 _ = V c main_v30 _
  congr 1
  funext a
  apply Fin.ext
  match a with
  | ⟨0, _⟩ => show win2_0.index t (0 : Fin 2) * 5000 + 1 * p.val = n.val; omega
  | ⟨1, _⟩ => show win2_0.index t (1 : Fin 2) * 96 + 1 * q.val = q.val; omega

/-- The mean window's block at any point is the mean row itself. -/
theorem blk1_apply (c : Dev nD) (t : Fin cfg2.N) (q : Fin 96) :
    (iblk2 V c 1 t : Vec Ideal S1x96 .f32) (ix2 (0 : Fin 1) q) = V c main_v41 (ix2 (0 : Fin 1) q) := by
  have e := idx_facts t
  unfold iblk2
  rw [View.read_apply]
  show V c main_v41 _ = V c main_v41 _
  congr 1
  funext a
  apply Fin.ext
  match a with
  | ⟨0, _⟩ => show win2_1.index t (0 : Fin 2) * 1 + 1 * (0 : Fin 1).val = (0 : Fin 1).val; omega
  | ⟨1, _⟩ => show win2_1.index t (1 : Fin 2) * 96 + 1 * q.val = q.val; omega

/-- The variance window's block at any point is the variance row itself. -/
theorem blk2_apply (c : Dev nD) (t : Fin cfg2.N) (q : Fin 96) :
    (iblk2 V c 2 t : Vec Ideal S1x96 .f32) (ix2 (0 : Fin 1) q) = V c main_v42 (ix2 (0 : Fin 1) q) := by
  have e := idx_facts t
  unfold iblk2
  rw [View.read_apply]
  show V c main_v42 _ = V c main_v42 _
  congr 1
  funext a
  apply Fin.ext
  match a with
  | ⟨0, _⟩ => show win2_2.index t (0 : Fin 2) * 1 + 1 * (0 : Fin 1).val = (0 : Fin 1).val; omega
  | ⟨1, _⟩ => show win2_2.index t (1 : Fin 2) * 96 + 1 * q.val = q.val; omega

/-- The scale window's block at any point is the scale row itself. -/
theorem blk3_apply (c : Dev nD) (t : Fin cfg2.N) (q : Fin 96) :
    (iblk2 V c 3 t : Vec Ideal S1x96 .f32) (ix2 (0 : Fin 1) q) = V c main_v43 (ix2 (0 : Fin 1) q) := by
  have e := idx_facts t
  unfold iblk2
  rw [View.read_apply]
  show V c main_v43 _ = V c main_v43 _
  congr 1
  funext a
  apply Fin.ext
  match a with
  | ⟨0, _⟩ => show win2_3.index t (0 : Fin 2) * 1 + 1 * (0 : Fin 1).val = (0 : Fin 1).val; omega
  | ⟨1, _⟩ => show win2_3.index t (1 : Fin 2) * 96 + 1 * q.val = q.val; omega

/-- The shift window's block at any point is the shift row itself. -/
theorem blk4_apply (c : Dev nD) (t : Fin cfg2.N) (q : Fin 96) :
    (iblk2 V c 4 t : Vec Ideal S1x96 .f32) (ix2 (0 : Fin 1) q) = V c main_v44 (ix2 (0 : Fin 1) q) := by
  have e := idx_facts t
  unfold iblk2
  rw [View.read_apply]
  show V c main_v44 _ = V c main_v44 _
  congr 1
  funext a
  apply Fin.ext
  match a with
  | ⟨0, _⟩ => show win2_4.index t (0 : Fin 2) * 1 + 1 * (0 : Fin 1).val = (0 : Fin 1).val; omega
  | ⟨1, _⟩ => show win2_4.index t (1 : Fin 2) * 96 + 1 * q.val = q.val; omega

/-- What point t writes back is block t of the formula's array. -/
theorem flushed_eq (c : Dev nD) (t : Fin cfg2.N) :
    (dat2 V c).flushed 5 t = ((cfg2.win 5).blk t).view.read (Elt Ideal) (normOf V c) := by
  show (cfg2.win 5).cut (grid2.coords t) ((dat2 V c).after 5 t) = _
  rw [after2_5]
  unfold out2_5
  rw [View.canon_unit_zero hz]
  simp only [View.ld_unit_zero (S := S5000x96) hz, View.ld_unit_zero (S := S1x96) hz]
  obtain ⟨-, -, -, -, -, -, -, -, -, -, e0, e1⟩ := idx_facts t
  funext j
  obtain ⟨p, q, rfl⟩ : ∃ (p : Fin 5000) (q : Fin 96), j = ix2 p q := ⟨j 0, j 1, eq_ix2 j⟩
  have hp : p.val < 5000 := p.isLt
  have ht : t.val < 10 := t.isLt
  have hemb : ((cfg2.win 5).blk t).view.emb (ix2 p q) = ix2 (⟨t.val * 5000 + p.val, by omega⟩ : Fin 50000) q := by
    funext a
    apply Fin.ext
    match a with
    | ⟨0, _⟩ => show win2_5.index t (0 : Fin 2) * 5000 + 1 * p.val = t.val * 5000 + p.val; omega
    | ⟨1, _⟩ => show win2_5.index t (1 : Fin 2) * 96 + 1 * q.val = q.val; omega
  rw [View.read_apply, hemb]
  show k2_pay1 _ _ _ _ _ (ix2 p q) = _
  rw [pay_apply, blk0_apply V c t p q ⟨t.val * 5000 + p.val, by omega⟩ rfl, blk1_apply, blk2_apply, blk3_apply, blk4_apply]
  rfl

/-- An index of the result array is in point t's block iff each coordinate is in the block's range on its axis. -/
theorem mem_blk (t : Fin cfg2.N) (i : S50000x96.Idx) :
    i ∈ ((cfg2.win 5).blk t).view.set ↔ ∀ a : Fin 2, win2_5.index t a * S5000x96.size a ≤ (i a).val
      ∧ (i a).val < win2_5.index t a * S5000x96.size a + S5000x96.size a := by
  show i ∈ ((View.whole main_v45).slice (win2_5.rect t)).set ↔ _
  rw [View.set_slice_whole, Rect.mem_set_unit]
  exact Iff.rfl

/-- Every node row lies in some point's block: row r in that of point r / 5000. -/
theorem covered (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  have ht : (i 0).val / 5000 < 10 := by omega
  refine ⟨⟨(i 0).val / 5000, ht⟩, flush2_5 _, ?_⟩
  rw [mem_blk]
  obtain ⟨-, -, -, -, -, -, -, -, -, -, e0, e1⟩ := idx_facts ⟨(i 0).val / 5000, ht⟩
  have e0' : win2_5.index ⟨(i 0).val / 5000, ht⟩ (0 : Fin 2) = (i 0).val / 5000 := e0
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 96 ≤ (i 1).val
      ∧ (i 1).val < win2_5.index ⟨(i 0).val / 5000, ht⟩ (1 : Fin 2) * 96 + 96
    omega

/-- What the third launch leaves in its result array: at node `i`, column `j`, the normalisation formula of the value
    array and the four rows the launch reads as it finds them. -/
theorem norm_array (c : Dev nD) :
    (dat2 V c).arrAt 5 cfg2.N = fun i : S50000x96.Idx =>
      Spec.bnAt (fun n j => V c main_v30 (ix2 n j)) (fun j => V c main_v41 (ix2 (0 : Fin 1) j)) (fun j => V c main_v42 (ix2 (0 : Fin 1) j))
        (fun j => V c main_v43 (ix2 (0 : Fin 1) j)) (fun j => V c main_v44 (ix2 (0 : Fin 1) j)) (i 0) (i 1) := by
  exact (dat2 V c).arrAt_eq_of_cover 5 (normOf V c) (fun t _ => flushed_eq V c t) (covered)

end Cert.KernelIdeal.NormRegion

end
-- ==== Proof.KBoundary.lean ====
/-
  What the three launches are entered with.

  Between the launches the program runs host operations over whole arrays.  The contents of every buffer at each
  boundary is a fold of those operations over the launch memory; read at the buffers the launches stage, the fold
  gives: the gathered source features and endpoint embeddings, the transposed weights and the bias row for the
  first launch; the node features, the messages scattered onto their destination nodes, the transposed self
  weights and the self bias row for the second; the second launch's result, its column means and variances as
  rows, and the scale and shift rows for the third.  An argument no operation writes is still what was launched.
-/
import proofs.«160944_j56684978372724_1_alg».proof.Proof.Gen.KernelIdeal.Frame
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- An index vector made non-negative the way array indexing does (a negative index counts from the end: 50000 is
    added to it), as the one-column matrix a gather or scatter takes. -/
def wrapIdx (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The column means of a 50000 x 96 array: the column sums divided by 50000. -/
def colMean (h : (⟨S50000x96, .f32⟩ : BufTy).Contents (Elt F)) : (⟨S96, .f32⟩ : BufTy).Contents (Elt F) :=
  Host.divf (Host.reduceAdd h (constant S_ .f32 0x00000000#32) reducesTo_S50000x96_S96_d0 h_S_)
    (broadcastInDim S96 ![] bcast_S_S96 (constant S_ .f32 0x47435000#32))

/-- The column variances of a 50000 x 96 array about given column means: the mean of the squared deviations. -/
def colVar (h : (⟨S50000x96, .f32⟩ : BufTy).Contents (Elt F)) (μ : (⟨S96, .f32⟩ : BufTy).Contents (Elt F)) : (⟨S96, .f32⟩ : BufTy).Contents (Elt F) :=
  Host.divf (Host.reduceAdd
      (mulf (subf h (broadcastInDim S50000x96 ![0, 1] bcast_S1x96_S50000x96_0_1 (broadcastInDim S1x96 ![1] bcast_S96_S1x96_1 μ)))
        (subf h (broadcastInDim S50000x96 ![0, 1] bcast_S1x96_S50000x96_0_1 (broadcastInDim S1x96 ![1] bcast_S96_S1x96_1 μ))))
      (constant S_ .f32 0x00000000#32) reducesTo_S50000x96_S96_d0 h_S_)
    (broadcastInDim S96 ![] bcast_S_S96 (constant S_ .f32 0x47435000#32))

/-! ## The first launch's entry -/

theorem entry0_features (c : Dev nD) :
    V1 m ρ c main_v6 = Host.gather gather_S50000x96_S800000x1_S800000x96_1_0_n_n_0_1_196
      (m ((c : Thread nD τ).loc main_arg0)) (wrapIdx (m ((c : Thread nD τ).loc main_arg2))) := by
  show StableHlo.after hostOps0 (W0 m ρ c) (Proc.devRef .tc main_v6) = _
  after_results_simp <;> rfl

theorem entry0_embSrc (c : Dev nD) :
    V1 m ρ c main_v13 = Host.gather gather_S50000x64_S800000x1_S800000x64_1_0_n_n_0_1_164
      (m ((c : Thread nD τ).loc main_arg1)) (wrapIdx (m ((c : Thread nD τ).loc main_arg2))) := by
  show StableHlo.after hostOps0 (W0 m ρ c) (Proc.devRef .tc main_v13) = _
  after_results_simp <;> rfl

theorem entry0_embDst (c : Dev nD) :
    V1 m ρ c main_v20 = Host.gather gather_S50000x64_S800000x1_S800000x64_1_0_n_n_0_1_164
      (m ((c : Thread nD τ).loc main_arg1)) (wrapIdx (m ((c : Thread nD τ).loc main_arg3))) := by
  show StableHlo.after hostOps0 (W0 m ρ c) (Proc.devRef .tc main_v20) = _
  after_results_simp <;> rfl

theorem entry0_convW (c : Dev nD) :
    V1 m ρ c main_v21 = transpose S96x96 [1, 0] (m ((c : Thread nD τ).loc main_arg4)) transposes_S96x96_S96x96_1_0 := by
  show StableHlo.after hostOps0 (W0 m ρ c) (Proc.devRef .tc main_v21) = _
  after_results_simp <;> rfl

theorem entry0_convB (c : Dev nD) :
    V1 m ρ c main_v24 = shapeCast S1x96 (m ((c : Thread nD τ).loc main_arg5)) shapeCasts_S96_S1x96 := by
  show StableHlo.after hostOps0 (W0 m ρ c) (Proc.devRef .tc main_v24) = _
  after_results_simp <;> rfl

theorem entry0_attW (c : Dev nD) :
    V1 m ρ c main_v23 = transpose S64x96 [1, 0] (m ((c : Thread nD τ).loc main_arg8)) transposes_S96x64_S64x96_1_0 := by
  show StableHlo.after hostOps0 (W0 m ρ c) (Proc.devRef .tc main_v23) = _
  after_results_simp <;> rfl

/-! ## Arguments no operation writes, at the later boundaries -/

/-- A launch-memory argument read at the first launch's exit: no array of that launch, and no operation before it
    writes it. -/
theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl

theorem exit0_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results_simp <;> rfl

theorem exit0_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

theorem exit0_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl

/-- The transposed self weights, computed before the first launch, are still there at its exit. -/
theorem exit0_selfW (c : Dev nD) :
    W2 m ρ c (Proc.devRef .tc main_v22) = transpose S96x96 [1, 0] (m ((c : Thread nD τ).loc main_arg6)) transposes_S96x96_S96x96_1_0 := by
  rw [W2_of_ne m ρ c main_v22 (by decide)]
  show StableHlo.after hostOps0 (W0 m ρ c) (Proc.devRef .tc main_v22) = _
  after_results_simp <;> rfl

/-- The self bias row, computed before the first launch, is still there at its exit. -/
theorem exit0_selfB (c : Dev nD) :
    W2 m ρ c (Proc.devRef .tc main_v25) = shapeCast S1x96 (m ((c : Thread nD τ).loc main_arg7)) shapeCasts_S96_S1x96 := by
  rw [W2_of_ne m ρ c main_v25 (by decide)]
  show StableHlo.after hostOps0 (W0 m ρ c) (Proc.devRef .tc main_v25) = _
  after_results_simp <;> rfl

/-- The first launch's result array at its exit: what its write-backs leave. -/
theorem exit0_msg (c : Dev nD) : W2 m ρ c (Proc.devRef .tc main_v26) = (dat0 (V1 m ρ) c).arrAt 6 cfg0.N :=
  W2_arr m ρ c 6

/-! ## The second launch's entry -/

theorem entry1_features (c : Dev nD) : V3 m ρ c main_arg0 = m ((c : Thread nD τ).loc main_arg0) := by
  show StableHlo.after hostOps1 (W2 m ρ c) (Proc.devRef .tc main_arg0) = _
  after_results_simp
  exact exit0_arg0 m ρ c

/-- The aggregated messages: the first launch's result scattered, by addition, onto the destination nodes from a
    zero array. -/
theorem entry1_agg (c : Dev nD) :
    V3 m ρ c main_v29 = Host.scatterAdd scatter_S50000x96_S800000x1_S800000x96_1_0_0_1
      (broadcastInDim S50000x96 ![] bcast_S_S50000x96 (constant S_ .f32 0x00000000#32))
      (broadcastInDim S800000x1 ![0] bcast_S800000_S800000x1_0 (m ((c : Thread nD τ).loc main_arg3)))
      ((dat0 (V1 m ρ) c).arrAt 6 cfg0.N) := by
  show StableHlo.after hostOps1 (W2 m ρ c) (Proc.devRef .tc main_v29) = _
  after_results_simp
  rw [exit0_arg3 m ρ c, exit0_msg m ρ c]

theorem entry1_selfW (c : Dev nD) :
    V3 m ρ c main_v22 = transpose S96x96 [1, 0] (m ((c : Thread nD τ).loc main_arg6)) transposes_S96x96_S96x96_1_0 := by
  show StableHlo.after hostOps1 (W2 m ρ c) (Proc.devRef .tc main_v22) = _
  after_results_simp
  exact exit0_selfW m ρ c

theorem entry1_selfB (c : Dev nD) :
    V3 m ρ c main_v25 = shapeCast S1x96 (m ((c : Thread nD τ).loc main_arg7)) shapeCasts_S96_S1x96 := by
  show StableHlo.after hostOps1 (W2 m ρ c) (Proc.devRef .tc main_v25) = _
  after_results_simp
  exact exit0_selfB m ρ c

/-! ## The third launch's entry -/

/-- The second launch's result array at its exit: what its write-backs leave. -/
theorem exit1_vals (c : Dev nD) : W4 m ρ c (Proc.devRef .tc main_v30) = (dat1 (V3 m ρ) c).arrAt 4 cfg1.N :=
  W4_arr m ρ c 4

theorem exit1_arg9 (c : Dev nD) : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results_simp
  exact exit0_arg9 m ρ c

theorem exit1_arg10 (c : Dev nD) : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results_simp
  exact exit0_arg10 m ρ c

theorem entry2_vals (c : Dev nD) : V5 m ρ c main_v30 = (dat1 (V3 m ρ) c).arrAt 4 cfg1.N := by
  show StableHlo.after hostOps2 (W4 m ρ c) (Proc.devRef .tc main_v30) = _
  after_results_simp
  exact exit1_vals m ρ c

/-- The mean row: the column means of the second launch's result, as a one-row matrix. -/
theorem entry2_mean (c : Dev nD) :
    V5 m ρ c main_v41 = shapeCast S1x96 (colMean ((dat1 (V3 m ρ) c).arrAt 4 cfg1.N)) shapeCasts_S96_S1x96 := by
  show StableHlo.after hostOps2 (W4 m ρ c) (Proc.devRef .tc main_v41) = _
  unfold colMean
  after_results_simp
  rw [exit1_vals m ρ c]
  rfl

/-- The variance row: the column variances of the second launch's result about its column means, as a one-row
    matrix. -/
theorem entry2_var (c : Dev nD) :
    V5 m ρ c main_v42 = shapeCast S1x96 (colVar ((dat1 (V3 m ρ) c).arrAt 4 cfg1.N) (colMean ((dat1 (V3 m ρ) c).arrAt 4 cfg1.N))) shapeCasts_S96_S1x96 := by
  show StableHlo.after hostOps2 (W4 m ρ c) (Proc.devRef .tc main_v42) = _
  unfold colVar colMean
  after_results_simp
  rw [exit1_vals m ρ c]
  rfl

theorem entry2_scale (c : Dev nD) :
    V5 m ρ c main_v43 = shapeCast S1x96 (m ((c : Thread nD τ).loc main_arg9)) shapeCasts_S96_S1x96 := by
  show StableHlo.after hostOps2 (W4 m ρ c) (Proc.devRef .tc main_v43) = _
  after_results_simp
  rw [exit1_arg9 m ρ c]
  rfl

theorem entry2_shift (c : Dev nD) :
    V5 m ρ c main_v44 = shapeCast S1x96 (m ((c : Thread nD τ).loc main_arg10)) shapeCasts_S96_S1x96 := by
  show StableHlo.after hostOps2 (W4 m ρ c) (Proc.devRef .tc main_v44) = _
  after_results_simp
  rw [exit1_arg10 m ρ c]
  rfl

/-- The program's result array after the last launch: what its write-backs leave. -/
theorem exit2_result (c : Dev nD) : W6 m ρ c (Proc.devRef .tc main_v45) = (dat2 (V5 m ρ) c).arrAt 5 cfg2.N :=
  W6_arr m ρ c 5

end Cert.KernelIdeal.Boundary

end
-- ==== Proof.RefStages.lean ====
/-
  The reference, stage by stage, against the three formulas.

  The reference computes the messages, the rectified self-connection and the normalisation as whole-array host
  operations.  Read at an entry, each of the three stages is the corresponding plain formula of the stages before
  it: a product of two matrix products and a rectifier for the messages; a sum, a matrix product and a rectifier
  for the self-connection; broadcasts of four rows for the normalisation.
-/
import proofs.«160944_j56684978372724_1_alg».proof.Proof.Gen.ReferenceIdeal.Read
import proofs.«160944_j56684978372724_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.TcCoe Idealize.ShloMosaic.ValueIdx

variable (x0 : (⟨S50000x96, .f32⟩ : BufTy).Contents (Elt Ideal)) (x1 : (⟨S50000x64, .f32⟩ : BufTy).Contents (Elt Ideal)) (x2 x3 : (⟨S800000, .i32⟩ : BufTy).Contents (Elt Ideal))
  (x4 : (⟨S96x96, .f32⟩ : BufTy).Contents (Elt Ideal)) (x5 : (⟨S96, .f32⟩ : BufTy).Contents (Elt Ideal)) (x6 : (⟨S96x96, .f32⟩ : BufTy).Contents (Elt Ideal)) (x7 : (⟨S96, .f32⟩ : BufTy).Contents (Elt Ideal))
  (x8 : (⟨S96x64, .f32⟩ : BufTy).Contents (Elt Ideal)) (x9 x10 : (⟨S96, .f32⟩ : BufTy).Contents (Elt Ideal))

/-- The reference's message array is the message formula of its gathered features and embeddings, its transposed
    weights and its bias vector. -/
theorem ref_msg :
    val_main_v30 (F := Ideal) x0 x1 x2 x3 x4 x5 x8 = fun i : S800000x96.Idx =>
      Spec.msgAt (fun e k => val_main_v23 (F := Ideal) x0 x2 (ix2 e k)) (fun e k => val_main_v6 (F := Ideal) x1 x2 (ix2 e k))
        (fun e k => val_main_v13 (F := Ideal) x1 x3 (ix2 e k)) (fun k j => val_main_v24 (F := Ideal) x4 (ix2 k j))
        (fun j => x5 (ix1 j)) (fun k j => val_main_v15 (F := Ideal) x8 (ix2 k j)) (i 0) (i 1) := by
  funext i
  obtain ⟨e, j, rfl⟩ : ∃ (e : Fin 800000) (j : Fin 96), i = ix2 e j := ⟨i 0, i 1, eq_ix2 i⟩
  have hl16 : ∀ k : Fin 64, lidx_main_v16 (ix2 e j) k = ix2 e k := fun k =>
    funext fun a => Fin.ext (by match a with | ⟨0, _⟩ => rfl | ⟨1, _⟩ => rfl)
  have hr16 : ∀ k : Fin 64, ridx_main_v16 (ix2 e j) k = ix2 k j := fun k =>
    funext fun a => Fin.ext (by match a with | ⟨0, _⟩ => rfl | ⟨1, _⟩ => rfl)
  have hl25 : ∀ k : Fin 96, lidx_main_v25 (ix2 e j) k = ix2 e k := fun k =>
    funext fun a => Fin.ext (by match a with | ⟨0, _⟩ => rfl | ⟨1, _⟩ => rfl)
  have hr25 : ∀ k : Fin 96, ridx_main_v25 (ix2 e j) k = ix2 k j := fun k =>
    funext fun a => Fin.ext (by match a with | ⟨0, _⟩ => rfl | ⟨1, _⟩ => rfl)
  have hb : idx_main_v26 (idx_main_v27 (ix2 e j)) = ix1 j :=
    funext fun a => Fin.ext (by match a with | ⟨0, _⟩ => rfl)
  rw [val_main_v30_apply, val_main_v16_apply, val_main_v29_apply, val_main_v28_apply, val_main_v25_apply,
    val_main_v27_apply, val_main_v26_apply, val_main_call0_v0_apply, val_main_call0_cst_apply]
  simp only [val_main_v14_apply, hl16, hr16, hl25, hr25, hb, Spec.msgAt, Ideal.mulf_def, Ideal.maximumf_def,
    Ideal.addf_def, Ideal.subf_def, Ideal.ofBits_def]

/-- The reference's pre-normalisation array is the self-connection formula of the node features, the aggregated
    messages, the transposed self weights and the self bias vector. -/
theorem ref_self :
    val_main_v40 (F := Ideal) x0 x1 x2 x3 x4 x5 x6 x7 x8 = fun i : S50000x96.Idx =>
      Spec.selfAt (fun n k => x0 (ix2 n k)) (fun n j => val_main_v33 (F := Ideal) x0 x1 x2 x3 x4 x5 x8 (ix2 n j))
        (fun k j => val_main_v34 (F := Ideal) x6 (ix2 k j)) (fun j => x7 (ix1 j)) (i 0) (i 1) := by
  funext i
  obtain ⟨n, j, rfl⟩ : ∃ (n : Fin 50000) (j : Fin 96), i = ix2 n j := ⟨i 0, i 1, eq_ix2 i⟩
  have hl : ∀ k : Fin 96, lidx_main_v35 (ix2 n j) k = ix2 n k := fun k =>
    funext fun a => Fin.ext (by match a with | ⟨0, _⟩ => rfl | ⟨1, _⟩ => rfl)
  have hr : ∀ k : Fin 96, ridx_main_v35 (ix2 n j) k = ix2 k j := fun k =>
    funext fun a => Fin.ext (by match a with | ⟨0, _⟩ => rfl | ⟨1, _⟩ => rfl)
  have hb : idx_main_v36 (idx_main_v37 (ix2 n j)) = ix1 j :=
    funext fun a => Fin.ext (by match a with | ⟨0, _⟩ => rfl)
  rw [val_main_v40_apply, val_main_v39_apply, val_main_v38_apply, val_main_v35_apply, val_main_v37_apply,
    val_main_v36_apply, val_main_call1_v0_apply, val_main_call1_cst_apply]
  simp only [hl, hr, hb, Spec.selfAt, Ideal.maximumf_def, Ideal.addf_def, Ideal.ofBits_def]

/-- The reference's result is the normalisation formula of its pre-normalisation array, its column means and
    variances, and the scale and shift vectors. -/
theorem ref_norm :
    val_main_v65 (F := Ideal) x0 x1 x2 x3 x4 x5 x6 x7 x8 x9 x10 = fun i : S50000x96.Idx =>
      Spec.bnAt (fun n j => val_main_v40 (F := Ideal) x0 x1 x2 x3 x4 x5 x6 x7 x8 (ix2 n j))
        (fun j => val_main_v43 (F := Ideal) x0 x1 x2 x3 x4 x5 x6 x7 x8 (ix1 j))
        (fun j => val_main_v50 (F := Ideal) x0 x1 x2 x3 x4 x5 x6 x7 x8 (ix1 j))
        (fun j => x9 (ix1 j)) (fun j => x10 (ix1 j)) (i 0) (i 1) := by
  funext i
  obtain ⟨n, j, rfl⟩ : ∃ (n : Fin 50000) (j : Fin 96), i = ix2 n j := ⟨i 0, i 1, eq_ix2 i⟩
  have h52 : idx_main_v51 (idx_main_v52 (ix2 n j)) = ix1 j :=
    funext fun a => Fin.ext (by match a with | ⟨0, _⟩ => rfl)
  have h58 : idx_main_v57 (idx_main_v58 (ix2 n j)) = ix1 j :=
    funext fun a => Fin.ext (by match a with | ⟨0, _⟩ => rfl)
  have h61 : idx_main_v60 (idx_main_v61 (ix2 n j)) = ix1 j :=
    funext fun a => Fin.ext (by match a with | ⟨0, _⟩ => rfl)
  have h64 : idx_main_v63 (idx_main_v64 (ix2 n j)) = ix1 j :=
    funext fun a => Fin.ext (by match a with | ⟨0, _⟩ => rfl)
  rw [val_main_v65_apply, val_main_v62_apply, val_main_v59_apply, val_main_v53_apply, val_main_v52_apply,
    val_main_v51_apply, val_main_v58_apply, val_main_v57_apply, val_main_v56_apply, val_main_v55_apply,
    val_main_v54_apply, val_main_cst_9_apply, val_main_v61_apply, val_main_v60_apply, val_main_v64_apply,
    val_main_v63_apply]
  simp only [h52, h58, h61, h64, Spec.bnAt, Ideal.mulf_def, Ideal.addf_def, Ideal.subf_def,
    Ideal.hostUnary_rsqrt_def, Ideal.ofBits_def]

end Cert.ReferenceIdeal.Stages

end
-- ==== Proof.KValue.lean ====
/-
  The idealized kernel's result array is the reference's result stage.

  Composing the three launches with the host operations between them: the first launch's array is the reference's
  message stage (the same gathers, transposes and bias, the same formula); scattered onto the destination nodes it
  is the reference's aggregation; the second launch's array is then the reference's rectified self-connection
  stage; its column means and variances are the reference's; and the third launch's array is the reference's
  normalised result.  A one-row matrix made from a vector holds the vector's entries in its row.
-/
import proofs.«160944_j56684978372724_1_alg».proof.Proof.KMsg
import proofs.«160944_j56684978372724_1_alg».proof.Proof.KSelf
import proofs.«160944_j56684978372724_1_alg».proof.Proof.KNorm
import proofs.«160944_j56684978372724_1_alg».proof.Proof.KBoundary
import proofs.«160944_j56684978372724_1_alg».proof.Proof.RefStages

set_option maxRecDepth 16384

noncomputable section

namespace Cert.Bridge

open Cert.KernelIdeal Cert.KernelIdeal.Gen Cert.KernelIdeal.Boundary
open Idealize.ShloMosaic Idealize.ShloMosaic.TcCoe Idealize.ShloMosaic.ValueIdx Idealize.SL.Sem
open Cert.ReferenceIdeal.Read (val_main_v6 val_main_v13 val_main_v15 val_main_v23 val_main_v24 val_main_v30 val_main_v33 val_main_v34 val_main_v40 val_main_v43 val_main_v50 val_main_v65)

variable (m : (ℓ : Loc nD τ sig) → Buf (Elt Ideal) ℓ) (ρ : Dev nD → PrngReg)

/-- A vector of 96 entries recast as a 1 x 96 matrix holds entry `j` at row 0, column `j`. -/
theorem row_of_vector (x : S96.Idx → EReal) (h : S96.ShapeCasts S1x96) (j : Fin 96) :
    shapeCast S1x96 x h (ix2 (0 : Fin 1) j) = x (ix1 j) :=
  shapeCast_apply x h (ix2 (0 : Fin 1) j) (ix1 j) (by
    rw [Shape.rowMajor_val_one, Shape.rowMajor_val_two]
    show j.val = 0 * 96 + j.val
    omega)

/-! ## The host chains the two programs share -/

theorem features_eq (x0 : (⟨S50000x96, .f32⟩ : BufTy).Contents (Elt Ideal)) (x2 : (⟨S800000, .i32⟩ : BufTy).Contents (Elt Ideal)) :
    Host.gather gather_S50000x96_S800000x1_S800000x96_1_0_n_n_0_1_196 x0 (wrapIdx x2) = val_main_v23 (F := Ideal) x0 x2 := rfl

theorem embSrc_eq (x1 : (⟨S50000x64, .f32⟩ : BufTy).Contents (Elt Ideal)) (x2 : (⟨S800000, .i32⟩ : BufTy).Contents (Elt Ideal)) :
    Host.gather gather_S50000x64_S800000x1_S800000x64_1_0_n_n_0_1_164 x1 (wrapIdx x2) = val_main_v6 (F := Ideal) x1 x2 := rfl

theorem embDst_eq (x1 : (⟨S50000x64, .f32⟩ : BufTy).Contents (Elt Ideal)) (x3 : (⟨S800000, .i32⟩ : BufTy).Contents (Elt Ideal)) :
    Host.gather gather_S50000x64_S800000x1_S800000x64_1_0_n_n_0_1_164 x1 (wrapIdx x3) = val_main_v13 (F := Ideal) x1 x3 := rfl

theorem convW_eq (x4 : (⟨S96x96, .f32⟩ : BufTy).Contents (Elt Ideal)) :
    transpose S96x96 [1, 0] x4 transposes_S96x96_S96x96_1_0 = val_main_v24 (F := Ideal) x4 := rfl

theorem attW_eq (x8 : (⟨S96x64, .f32⟩ : BufTy).Contents (Elt Ideal)) :
    transpose S64x96 [1, 0] x8 transposes_S96x64_S64x96_1_0 = val_main_v15 (F := Ideal) x8 := rfl

theorem selfW_eq (x6 : (⟨S96x96, .f32⟩ : BufTy).Contents (Elt Ideal)) :
    transpose S96x96 [1, 0] x6 transposes_S96x96_S96x96_1_0 = val_main_v34 (F := Ideal) x6 := rfl

/-! ## The three launches against the reference's stages -/

/-- The first launch leaves the reference's message array. -/
theorem msg_eq (c : Dev nD) :
    (dat0 (V1 m ρ) c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  rw [Cert.KernelIdeal.MsgRegion.msg_array (V1 m ρ) c, Cert.ReferenceIdeal.Stages.ref_msg,
    entry0_features, entry0_embSrc, entry0_embDst, entry0_convW, entry0_convB, entry0_attW,
    features_eq, embSrc_eq, embDst_eq, convW_eq, attW_eq]
  have hb : (fun j : Fin 96 => shapeCast S1x96 (m ((c : Thread nD τ).loc main_arg5)) shapeCasts_S96_S1x96 (ix2 (0 : Fin 1) j))
      = fun j : Fin 96 => (m ((c : Thread nD τ).loc main_arg5)) (ix1 j) := funext fun j => row_of_vector _ _ j
  rw [hb]

/-- The aggregated messages the second launch is entered with are the reference's aggregation stage. -/
theorem agg_eq (c : Dev nD) :
    V3 m ρ c main_v29 = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  rw [entry1_agg, msg_eq]
  rfl

/-- The second launch leaves the reference's rectified self-connection array. -/
theorem self_eq (c : Dev nD) :
    (dat1 (V3 m ρ) c).arrAt 4 cfg1.N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.KernelIdeal.SelfRegion.self_array (V3 m ρ) c, Cert.ReferenceIdeal.Stages.ref_self,
    entry1_features, agg_eq, entry1_selfW, entry1_selfB, selfW_eq]
  have hb : (fun j : Fin 96 => shapeCast S1x96 (m ((c : Thread nD τ).loc main_arg7)) shapeCasts_S96_S1x96 (ix2 (0 : Fin 1) j))
      = fun j : Fin 96 => (m ((c : Thread nD τ).loc main_arg7)) (ix1 j) := funext fun j => row_of_vector _ _ j
  rw [hb]

/-- The column means the third launch is entered with are the reference's. -/
theorem mean_eq (c : Dev nD) :
    colMean ((dat1 (V3 m ρ) c).arrAt 4 cfg1.N) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [self_eq]
  rfl

/-- The column variances the third launch is entered with are the reference's. -/
theorem var_eq (c : Dev nD) :
    colVar ((dat1 (V3 m ρ) c).arrAt 4 cfg1.N) (colMean ((dat1 (V3 m ρ) c).arrAt 4 cfg1.N)) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [self_eq]
  rfl

/-- The program's result array after the last launch is the reference's result stage of the launch memory's
    arguments. -/
theorem result_eq (c : Dev nD) :
    W6 m ρ c (Proc.devRef .tc main_v45) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [exit2_result, Cert.KernelIdeal.NormRegion.norm_array (V5 m ρ) c, Cert.ReferenceIdeal.Stages.ref_norm,
    entry2_vals, entry2_mean, entry2_var, entry2_scale, entry2_shift, var_eq, mean_eq, self_eq]
  have h1 : (fun j : Fin 96 => shapeCast S1x96 (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S96_S1x96 (ix2 (0 : Fin 1) j))
      = fun j : Fin 96 => (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix1 j) := funext fun j => row_of_vector _ _ j
  have h2 : (fun j : Fin 96 => shapeCast S1x96 (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S96_S1x96 (ix2 (0 : Fin 1) j))
      = fun j : Fin 96 => (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix1 j) := funext fun j => row_of_vector _ _ j
  have h3 : (fun j : Fin 96 => shapeCast S1x96 (m ((c : Thread nD τ).loc main_arg9)) shapeCasts_S96_S1x96 (ix2 (0 : Fin 1) j))
      = fun j : Fin 96 => (m ((c : Thread nD τ).loc main_arg9)) (ix1 j) := funext fun j => row_of_vector _ _ j
  have h4 : (fun j : Fin 96 => shapeCast S1x96 (m ((c : Thread nD τ).loc main_arg10)) shapeCasts_S96_S1x96 (ix2 (0 : Fin 1) j))
      = fun j : Fin 96 => (m ((c : Thread nD τ).loc main_arg10)) (ix1 j) := funext fun j => row_of_vector _ _ j
  rw [h1, h2, h3, h4]

end Cert.Bridge

end
-- ==== Proof.lean ====
/-
  One layer of attention-gated message passing with batch normalisation: the kernel program against its reference,
  over the extended reals.

  The kernel program runs three grid launches among whole-array host operations.  The first launch computes, for
  5000 edges at a time, the message of each edge: the attention gate (the difference of the two endpoint
  embeddings against the attention weights) times the rectified convolution of the source node's features.  The
  host scatters the messages, by addition, onto their destination nodes.  The second launch adds, for 5000 nodes at
  a time, each node's own affine image and rectifies.  The host takes the column means and variances, and the third
  launch normalises, again 5000 nodes at a time.  The reference computes the same three stages as whole-array
  operations.

  Read exactly, both programs compute the same function: the gathers, the scatter, the means and variances are the
  same host operations on both sides; a matrix product is the same finite sum whether it is taken block by block
  or at once; the blocks of every launch tile its array.  No algebraic law beyond that is used, so finiteness of
  the inputs is never opened.  The frames of the two kernel programs are the generated ones; the reference's frame
  is its generated run with the result dropped; the idealization rewrote nothing, so nothing is owed for it.
-/
import proofs.«160944_j56684978372724_1_alg».proof.Defs
import proofs.«160944_j56684978372724_1_alg».proof.Proof.Gen.Kernel
import proofs.«160944_j56684978372724_1_alg».proof.Proof.Gen.Kernel.Skeleton
import proofs.«160944_j56684978372724_1_alg».proof.Proof.Gen.Kernel.Launch
import proofs.«160944_j56684978372724_1_alg».proof.Proof.Gen.Kernel.Points
import proofs.«160944_j56684978372724_1_alg».proof.Proof.Gen.Kernel.Frame
import proofs.«160944_j56684978372724_1_alg».proof.Proof.Gen.KernelIdeal
import proofs.«160944_j56684978372724_1_alg».proof.Proof.Gen.KernelIdeal.Skeleton
import proofs.«160944_j56684978372724_1_alg».proof.Proof.Gen.KernelIdeal.Launch
import proofs.«160944_j56684978372724_1_alg».proof.Proof.Gen.KernelIdeal.Points
import proofs.«160944_j56684978372724_1_alg».proof.Proof.Gen.KernelIdeal.Frame
import proofs.«160944_j56684978372724_1_alg».proof.Proof.Gen.ReferenceIdeal
import proofs.«160944_j56684978372724_1_alg».proof.Proof.Gen.Pre_finite_inputs
import proofs.«160944_j56684978372724_1_alg».proof.Proof.Gen.ReferenceIdeal.Run
import proofs.«160944_j56684978372724_1_alg».proof.Proof.Gen.ReferenceIdeal.Read
import proofs.«160944_j56684978372724_1_alg».proof.Proof.KRun
import proofs.«160944_j56684978372724_1_alg».proof.Proof.KValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the
    reference's result stage of the arguments. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Bridge.result_eq m ρ c), (h c).2⟩) (Cert.KernelIdeal.Named.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v65_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
